-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44_1)) (v1 : (c : Dev Cert.KernelIdeal.nD) → Buf (Elt Ideal) ((c.tc : Thread Cert.KernelIdeal.nD Cert.KernelIdeal.τ).loc Cert.KernelIdeal.main_v44_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_1) = v0 c
          ∧ r.2.mem ((c.tc : Thread Cert.KernelIdeal.nD Cert.KernelIdeal.τ).loc Cert.KernelIdeal.main_v44_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32x64 .f32) (main_arg9 : FVec F S32 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S32x64 .f32) (main_arg9 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S32x64 .f32) (main_arg9 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S100000x1 : Shape := ⟨2, ![100000, 1]⟩
abbrev S1250000x64 : Shape := ⟨2, ![1250000, 64]⟩
abbrev S1x64 : Shape := ⟨2, ![1, 64]⟩
abbrev S5000x64 : Shape := ⟨2, ![5000, 64]⟩
abbrev S64x32 : Shape := ⟨2, ![64, 32]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 65
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .f32⟩
  | .hbm, ⟨15, _⟩ => ⟨S1250000, .f32⟩
  | .hbm, ⟨16, _⟩ => ⟨S_, .f32⟩
  | .hbm, ⟨17, _⟩ => ⟨S100000, .f32⟩
  | .hbm, ⟨18, _⟩ => ⟨S1250000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1250000, .i32⟩
  | .hbm, ⟨26, _⟩ => ⟨S1250000, .i1⟩
  | .hbm, ⟨27, _⟩ => ⟨S_, .i32⟩
  | .hbm, ⟨28, _⟩ => ⟨S1250000, .i32⟩
  | .hbm, ⟨29, _⟩ => ⟨S1250000, .i32⟩
  | .hbm, ⟨30, _⟩ => ⟨S1250000, .i32⟩
  | .hbm, ⟨31, _⟩ => ⟨S1250000x1, .i32⟩
  | .hbm, ⟨32, _⟩ => ⟨S1250000x64, .f32⟩
  | .hbm, ⟨33, _⟩ => ⟨S_, .f32⟩
  | .hbm, ⟨34, _⟩ => ⟨S100000x64, .f32⟩
  | .hbm, ⟨35, _⟩ => ⟨S1250000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S64x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1250000, .i32⟩
  | .hbm, ⟨45, _⟩ => ⟨S1250000, .i1⟩
  | .hbm, ⟨46, _⟩ => ⟨S_, .i32⟩
  | .hbm, ⟨47, _⟩ => ⟨S1250000, .i32⟩
  | .hbm, ⟨48, _⟩ => ⟨S1250000, .i32⟩
  | .hbm, ⟨49, _⟩ => ⟨S1250000, .i32⟩
  | .hbm, ⟨50, _⟩ => ⟨S1250000x1, .i32⟩
  | .hbm, ⟨51, _⟩ => ⟨S1250000x64, .f32⟩
  | .hbm, ⟨52, _⟩ => ⟨S_, .f32⟩
  | .hbm, ⟨53, _⟩ => ⟨S100000x64, .f32⟩
  | .hbm, ⟨54, _⟩ => ⟨S1250000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S64x64, .f32⟩
  | .hbm, ⟨59, _⟩ => ⟨S64x64, .f32⟩
  | .hbm, ⟨60, _⟩ => ⟨S1x64, .f32⟩
  | .hbm, ⟨61, _⟩ => ⟨S64x32, .f32⟩
  | .hbm, ⟨62, _⟩ => ⟨S1x32, .f32⟩
  | .hbm, ⟨63, _⟩ => ⟨S100000x64, .f32⟩
  | .hbm, ⟨64, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x32, .f32⟩
  | .local _ .vmem, ⟨17, _⟩ => ⟨S1x32, .f32⟩
  | .local _ .vmem, ⟨18, _⟩ => ⟨S5000x64, .f32⟩
  | .local _ .vmem, ⟨19, _⟩ => ⟨S5000x64, .f32⟩
  | .local _ .vmem, ⟨20, _⟩ => ⟨S5000x32, .f32⟩
  | .local _ .vmem, ⟨21, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S32x64_S64x32_1_0 : S32x64.Transposes [1, 0] S64x32
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x32.size a ≤ S100000x32.size a
  hwx1_8 : ∀ i : grid1.Coords, EltTy.bits .f32 = 32 ∨ (Rect.block (s := S100000x32) S5000x32.size (cc1_transform_8 i) (hinb1_8 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v44_1) S5000x32.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 91
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S1x1250000, .i32⟩
  | .hbm, ⟨11, _⟩ => ⟨S1250000, .i32⟩
  | .hbm, ⟨12, _⟩ => ⟨S1x1250000, .i32⟩
  | .hbm, ⟨13, _⟩ => ⟨S1250000, .i32⟩
  | .hbm, ⟨14, _⟩ => ⟨S_, .i32⟩
  | .hbm, ⟨15, _⟩ => ⟨S1250000, .i32⟩
  | .hbm, ⟨16, _⟩ => ⟨S1250000, .i1⟩
  | .hbm, ⟨17, _⟩ => ⟨S_, .i32⟩
  | .hbm, ⟨18, _⟩ => ⟨S1250000, .i32⟩
  | .hbm, ⟨19, _⟩ => ⟨S1250000, .i32⟩
  | .hbm, ⟨20, _⟩ => ⟨S1250000, .i32⟩
  | .hbm, ⟨21, _⟩ => ⟨S1250000x1, .i32⟩
  | .hbm, ⟨22, _⟩ => ⟨S1250000x64, .f32⟩
  | .hbm, ⟨23, _⟩ => ⟨S_, .f32⟩
  | .hbm, ⟨24, _⟩ => ⟨S100000x64, .f32⟩
  | .hbm, ⟨25, _⟩ => ⟨S1250000x1, .i32⟩
  | .hbm, ⟨26, _⟩ => ⟨S100000x64, .f32⟩
  | .hbm, ⟨27, _⟩ => ⟨S_, .f32⟩
  | .hbm, ⟨28, _⟩ => ⟨S1250000, .f32⟩
  | .hbm, ⟨29, _⟩ => ⟨S_, .f32⟩
  | .hbm, ⟨30, _⟩ => ⟨S100000, .f32⟩
  | .hbm, ⟨31, _⟩ => ⟨S1250000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x64, .f32⟩
  | .hbm, ⟨59, _⟩ => ⟨S_, .f32⟩
  | .hbm, ⟨60, _⟩ => ⟨S100000x64, .f32⟩
  | .hbm, ⟨61, _⟩ => ⟨S1250000x1, .i32⟩
  | .hbm, ⟨62, _⟩ => ⟨S100000x64, .f32⟩
  | .hbm, ⟨63, _⟩ => ⟨S_, .f32⟩
  | .hbm, ⟨64, _⟩ => ⟨S1250000, .f32⟩
  | .hbm, ⟨65, _⟩ => ⟨S_, .f32⟩
  | .hbm, ⟨66, _⟩ => ⟨S100000, .f32⟩
  | .hbm, ⟨67, _⟩ => ⟨S1250000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x32, .f32⟩
  | .hbm, ⟨87, _⟩ => ⟨S100000x32, .f32⟩
  | .hbm, ⟨88, _⟩ => ⟨S1x32, .f32⟩
  | .hbm, ⟨89, _⟩ => ⟨S100000x32, .f32⟩
  | .hbm, ⟨90, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Spec.lean ====
/-
  The mathematics of the certificate, with no program in sight.

  A neighbour-mean graph convolution acts on a table of node rows in two steps: an aggregation of rows along the
  edges (a gather, a segment sum and a division by the clipped in-degree), which both programs compute with the
  same host operations, and a DENSE step that works row by row,

      layer M X Wl Wr b (r, j) = max ( Σ_k M(r,k)·Wl(k,j) + Σ_k X(r,k)·Wr(k,j) + b(0,j) , 0 ),

  with `M` the aggregated rows, `X` the node's own rows, the two weight matrices laid out [in, out] and the bias a
  row [1, out].  The classifier head is `head H Wc bc (r, j) = Σ_k H(r,k)·Wc(k,j) + bc(0,j)`.  Both are stated
  for any number `n` of rows: a tile of rows of the result is the same function of the tile's rows of `M` and `X`
  (row locality), which is what lets a row-tiled kernel be read as one whole-array function.
  The zero of the rectifier is kept as the word it is printed with.
-/
import Idealize.ShloMosaic.Lib.ValueIdx
import Idealize.ShloMosaic.PureOps.Ideal.Laws

noncomputable section

open scoped BigOperators

namespace Cert.Sage

open Idealize.ShloMosaic Idealize.ShloMosaic.ValueIdx

/-- The dense step of one convolution layer on `n` rows of 64 features: the rectified sum of the aggregated rows
    times `Wl`, the own rows times `Wr`, and the bias row. -/
def layer {n : ℕ} (M X : FVec Ideal ⟨2, ![n, 64]⟩ .f32) (Wl Wr : FVec Ideal ⟨2, ![64, 64]⟩ .f32)
    (b : FVec Ideal ⟨2, ![1, 64]⟩ .f32) : FVec Ideal ⟨2, ![n, 64]⟩ .f32 :=
  fun i => max ((∑ k : Fin 64, M (ix2 (i 0 : Fin n) k) * Wl (ix2 k (i 1 : Fin 64)))
      + (∑ k : Fin 64, X (ix2 (i 0 : Fin n) k) * Wr (ix2 k (i 1 : Fin 64))) + b (ix2 (0 : Fin 1) (i 1 : Fin 64)))
    (Ideal.ofBits .f32 0x00000000#32)

theorem layer_apply {n : ℕ} (M X : FVec Ideal ⟨2, ![n, 64]⟩ .f32) (Wl Wr : FVec Ideal ⟨2, ![64, 64]⟩ .f32)
    (b : FVec Ideal ⟨2, ![1, 64]⟩ .f32) (p : Fin n) (q : Fin 64) :
    layer M X Wl Wr b (ix2 p q) = max ((∑ k : Fin 64, M (ix2 p k) * Wl (ix2 k q))
      + (∑ k : Fin 64, X (ix2 p k) * Wr (ix2 k q)) + b (ix2 (0 : Fin 1) q)) (Ideal.ofBits .f32 0x00000000#32) := rfl

/-- The linear head on `n` rows: 64 features to 32 logits, plus the bias row. -/
def head {n : ℕ} (H : FVec Ideal ⟨2, ![n, 64]⟩ .f32) (Wc : FVec Ideal ⟨2, ![64, 32]⟩ .f32)
    (bc : FVec Ideal ⟨2, ![1, 32]⟩ .f32) : FVec Ideal ⟨2, ![n, 32]⟩ .f32 :=
  fun i => (∑ k : Fin 64, H (ix2 (i 0 : Fin n) k) * Wc (ix2 k (i 1 : Fin 32))) + bc (ix2 (0 : Fin 1) (i 1 : Fin 32))

theorem head_apply {n : ℕ} (H : FVec Ideal ⟨2, ![n, 64]⟩ .f32) (Wc : FVec Ideal ⟨2, ![64, 32]⟩ .f32)
    (bc : FVec Ideal ⟨2, ![1, 32]⟩ .f32) (p : Fin n) (q : Fin 32) :
    head H Wc bc (ix2 p q) = (∑ k : Fin 64, H (ix2 p k) * Wc (ix2 k q)) + bc (ix2 (0 : Fin 1) q) := rfl

/-- The reference adds the bias before the second product; on the extended reals addition is commutative and
    associative (no finiteness is needed), so the two groupings agree. -/
theorem add_regroup (a b c : EReal) : a + c + b = a + b + c := by
  rw [add_assoc, add_comm c b, ← add_assoc]

/-- ROW LOCALITY of the dense step: row `p` of the result only reads row `p` of the two tables, so two pairs of
    tables that agree on a row (of possibly different heights) give the same entries on that row. -/
theorem layer_row_congr {n n' : ℕ} (M X : FVec Ideal ⟨2, ![n, 64]⟩ .f32) (M' X' : FVec Ideal ⟨2, ![n', 64]⟩ .f32)
    (Wl Wr : FVec Ideal ⟨2, ![64, 64]⟩ .f32) (b : FVec Ideal ⟨2, ![1, 64]⟩ .f32) (p : Fin n) (p' : Fin n') (q : Fin 64)
    (hM : ∀ k : Fin 64, M (ix2 p k) = M' (ix2 p' k)) (hX : ∀ k : Fin 64, X (ix2 p k) = X' (ix2 p' k)) :
    layer M X Wl Wr b (ix2 p q) = layer M' X' Wl Wr b (ix2 p' q) := by
  rw [layer_apply, layer_apply]
  simp only [hM, hX]

/-- Row locality of the head. -/
theorem head_row_congr {n n' : ℕ} (H : FVec Ideal ⟨2, ![n, 64]⟩ .f32) (H' : FVec Ideal ⟨2, ![n', 64]⟩ .f32)
    (Wc : FVec Ideal ⟨2, ![64, 32]⟩ .f32) (bc : FVec Ideal ⟨2, ![1, 32]⟩ .f32) (p : Fin n) (p' : Fin n') (q : Fin 32)
    (hH : ∀ k : Fin 64, H (ix2 p k) = H' (ix2 p' k)) :
    head H Wc bc (ix2 p q) = head H' Wc bc (ix2 p' q) := by
  rw [head_apply, head_apply]
  simp only [hH]

/-- A matrix read with its two coordinates exchanged. -/
def tr {a b : ℕ} (W : FVec Ideal ⟨2, ![a, b]⟩ .f32) : FVec Ideal ⟨2, ![b, a]⟩ .f32 :=
  fun i => W (ix2 (i 1 : Fin a) (i 0 : Fin b))

theorem tr_apply {a b : ℕ} (W : FVec Ideal ⟨2, ![a, b]⟩ .f32) (j : Fin b) (i : Fin a) : tr W (ix2 j i) = W (ix2 i j) := rfl

/-- A vector laid out as a one-row table. -/
def rowOf {a : ℕ} (v : FVec Ideal ⟨1, ![a]⟩ .f32) : FVec Ideal ⟨2, ![1, a]⟩ .f32 :=
  fun i => v (ix1 (i 1 : Fin a))

theorem rowOf_apply {a : ℕ} (v : FVec Ideal ⟨1, ![a]⟩ .f32) (z : Fin 1) (j : Fin a) : rowOf v (ix2 z j) = v (ix1 j) := rfl

end Cert.Sage

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.Tile.lean ====
/-
  What one grid step of each of the two kernels computes, as the functions of the specification on a tile of 5000
  rows.  The first kernel's body rounds its five loaded blocks to a narrower float format (the identity on the
  extended reals), multiplies the aggregated rows by one weight block and the own rows by the other, each product
  accumulated from zero (a plain sum over the 64 contracted coordinates), adds the two products and the bias row
  spread over the rows, and rectifies: `layer` on the tile.  The second kernel does the same for the second
  layer and then multiplies the rectified tile by the classifier block and adds its bias row: `head` of that tile.
-/
import proofs.«161212_j72361609003660_1_alg».proof.Proof.Gen.KernelIdeal.Skeleton
import proofs.«161212_j72361609003660_1_alg».proof.Proof.Spec
import proofs.«161212_j72361609003660_1_alg».proof.Proof.LibPlainProduct
import Idealize.ShloMosaic.Lib.Pipeline.Value
import Idealize.ShloMosaic.Lib.ValueLayout

noncomputable section

open scoped BigOperators

namespace Cert.Sage.Tile

open Idealize.ShloMosaic Idealize.ShloMosaic.ValueIdx Cert.KernelIdeal Cert.KernelIdeal.Gen Cert.Sage

/-- The printed dimension numbers of the 5000×64 by 64×64 product are the plain ones. -/
theorem dot64 : dot_S5000x64_S64x64_S5000x64_1_0_0_1_n_n = DotDims.plain 5000 64 64 := rfl
/-- The printed dimension numbers of the 5000×64 by 64×32 product are the plain ones. -/
theorem dot32 : dot_S5000x64_S64x32_S5000x32_1_0_0_1_n_n = DotDims.plain 5000 64 32 := rfl

/-- A one-row block spread over 5000 rows reads its row. -/
theorem spread64 (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) fun a => match a with
    | ⟨0, _⟩ => rfl
    | ⟨1, _⟩ => rfl

theorem spread32 (b : FVec Ideal S1x32 .f32) (p : Fin 5000) (q : Fin 32) :
    broadcastTo S5000x32 b broadcasts_S1x32_S5000x32 (ix2 p q) = b (ix2 (0 : Fin 1) q) :=
  broadcastTo_apply b broadcasts_S1x32_S5000x32 (ix2 p q) (ix2 (0 : Fin 1) q) fun a => match a with
    | ⟨0, _⟩ => rfl
    | ⟨1, _⟩ => rfl

/-- The first kernel's stored tile is the dense step on the tile's rows. -/
theorem pay0_eq (xM xX : Vec Ideal S5000x64 .f32) (xWl xWr : Vec Ideal S64x64 .f32) (xb : Vec Ideal S1x64 .f32) :
    k0_pay1 (F := Ideal) xM xX xWl xWr xb = layer (n := 5000) xM xX xWl xWr xb := by
  funext i
  obtain ⟨p, q, rfl⟩ : ∃ (p : Fin 5000) (q : Fin 64), i = ix2 p q := ⟨i 0, i 1, eq_ix2 i⟩
  unfold k0_pay1
  simp only [shapeCast_self]
  rw [layer_apply, maximumf_apply, addf_apply, addf_apply, spread64]
  rw [dot64, PlainProduct.matmul_zero_apply, PlainProduct.matmul_zero_apply]
  rfl

/-- The second kernel's first stored tile is the dense step on the tile's rows. -/
theorem pay1_eq (xM xX : Vec Ideal S5000x64 .f32) (xWl xWr : Vec Ideal S64x64 .f32) (xb : Vec Ideal S1x64 .f32) :
    k1_pay1 (F := Ideal) xM xX xWl xWr xb = layer (n := 5000) xM xX xWl xWr xb := by
  funext i
  obtain ⟨p, q, rfl⟩ : ∃ (p : Fin 5000) (q : Fin 64), i = ix2 p q := ⟨i 0, i 1, eq_ix2 i⟩
  unfold k1_pay1
  simp only [shapeCast_self]
  rw [layer_apply, maximumf_apply, addf_apply, addf_apply, spread64]
  rw [dot64, PlainProduct.matmul_zero_apply, PlainProduct.matmul_zero_apply]
  rfl

/-- The second kernel's second stored tile is the head of its first. -/
theorem pay2_eq (xM xX : Vec Ideal S5000x64 .f32) (xWl xWr : Vec Ideal S64x64 .f32) (xWc : Vec Ideal S64x32 .f32)
    (xb : Vec Ideal S1x64 .f32) (xbc : Vec Ideal S1x32 .f32) :
    k1_pay2 (F := Ideal) xM xX xWl xWr xWc xb xbc = head (n := 5000) (layer (n := 5000) xM xX xWl xWr xb) xWc xbc := by
  funext i
  obtain ⟨p, q, rfl⟩ : ∃ (p : Fin 5000) (q : Fin 32), i = ix2 p q := ⟨i 0, i 1, eq_ix2 i⟩
  unfold k1_pay2
  simp only [shapeCast_self]
  rw [head_apply, addf_apply, spread32, pay1_eq]
  rw [dot32, PlainProduct.matmul_zero_apply]
  rfl

end Cert.Sage.Tile

end
-- ==== Proof.Region0.lean ====
/-
  The first kernel over its whole grid, at ANY contents `V` of the buffers when the region is entered: its output
  array ends as the dense step of the specification applied to the five arrays the windows stage.
  The grid has 20 points; point `t` stages rows 5000·t … 5000·t + 4999 of the aggregated table and of the node
  table, the two weight matrices and the bias row whole, and writes back rows 5000·t … of the output.  By the row
  locality of the dense step the tile that point `t` stores is the tile of the whole-array function, and the 20
  tiles cover the 100000 rows.
-/
import proofs.«161212_j72361609003660_1_alg».proof.Proof.Gen.KernelIdeal.Frame
import proofs.«161212_j72361609003660_1_alg».proof.Proof.Tile

set_option maxRecDepth 16384

noncomputable section

namespace Cert.Sage.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the row-tiled windows are at block (t, 0), the weights
    and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array function the output ends at. -/
abbrev G (c : Dev nD) : FVec Ideal S100000x64 .f32 :=
  layer (n := 100000) (V c main_v22) (V c main_arg0) (V c main_v23) (V c main_v24) (V c main_v25)

/-- A row of the aggregated table's block at point `t` is row 5000·t + p of the table. -/
theorem blkM (c : Dev nD) (t : Fin cfg0.N) (p : Fin 5000) (p' : Fin 100000) (hp : p'.val = t.val * 5000 + p.val) (k : Fin 64) :
    iblk0 V c 0 t (ix2 p k) = V c main_v22 (ix2 p' k) := by
  obtain ⟨e0, e1, -⟩ := idx_facts t
  show V c main_v22 (((cfg0.win 0).blk t).view.emb (ix2 p k)) = V c main_v22 (ix2 p' k)
  refine congrArg (V c main_v22) (funext fun a => Fin.ext ?_)
  match a with
  | ⟨0, _⟩ => show win0_0.index t (0 : Fin 2) * 5000 + 1 * p.val = p'.val; omega
  | ⟨1, _⟩ => show win0_0.index t (1 : Fin 2) * 64 + 1 * k.val = k.val; omega

/-- A row of the node table's block at point `t` is row 5000·t + p of the table. -/
theorem blkX (c : Dev nD) (t : Fin cfg0.N) (p : Fin 5000) (p' : Fin 100000) (hp : p'.val = t.val * 5000 + p.val) (k : Fin 64) :
    iblk0 V c 1 t (ix2 p k) = V c main_arg0 (ix2 p' k) := by
  obtain ⟨-, -, e0, e1, -⟩ := idx_facts t
  show V c main_arg0 (((cfg0.win 1).blk t).view.emb (ix2 p k)) = V c main_arg0 (ix2 p' k)
  refine congrArg (V c main_arg0) (funext fun a => Fin.ext ?_)
  match a with
  | ⟨0, _⟩ => show win0_1.index t (0 : Fin 2) * 5000 + 1 * p.val = p'.val; omega
  | ⟨1, _⟩ => show win0_1.index t (1 : Fin 2) * 64 + 1 * k.val = k.val; omega

/-- The weight and bias blocks are their arrays whole. -/
theorem blkWl (c : Dev nD) (t : Fin cfg0.N) : (iblk0 V c 2 t : FVec Ideal S64x64 .f32) = V c main_v23 := by
  obtain ⟨-, -, -, -, e0, e1, -⟩ := idx_facts t
  funext y
  show V c main_v23 (((cfg0.win 2).blk t).view.emb y) = V c main_v23 y
  refine congrArg (V c main_v23) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem blkb (c : Dev nD) (t : Fin cfg0.N) : (iblk0 V c 3 t : FVec Ideal S1x64 .f32) = V c main_v25 := by
  obtain ⟨-, -, -, -, -, -, e0, e1, -⟩ := idx_facts t
  funext y
  show V c main_v25 (((cfg0.win 3).blk t).view.emb y) = V c main_v25 y
  refine congrArg (V c main_v25) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

theorem blkWr (c : Dev nD) (t : Fin cfg0.N) : (iblk0 V c 4 t : FVec Ideal S64x64 .f32) = V c main_v24 := by
  obtain ⟨-, -, -, -, -, -, -, -, e0, e1, -⟩ := idx_facts t
  funext y
  show V c main_v24 (((cfg0.win 4).blk t).view.emb y) = V c main_v24 y
  refine congrArg (V c main_v24) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- WHAT POINT `t` WRITES BACK is block `t` of the whole-array function. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, -, -, -, -, e0, e1⟩ := idx_facts t
  have ht : t.val < 20 := t.isLt
  have hp' : t.val * 5000 + p.val < 100000 := by have := p.isLt; omega
  have hemb : ((cfg0.win 5).blk t).view.emb (ix2 p q) = (ix2 (⟨t.val * 5000 + p.val, hp'⟩ : Fin 100000) q : S100000x64.Idx) :=
    funext fun a => Fin.ext (by
      match a with
      | ⟨0, _⟩ => show win0_5.index t (0 : Fin 2) * 5000 + 1 * p.val = t.val * 5000 + p.val; omega
      | ⟨1, _⟩ => show win0_5.index t (1 : Fin 2) * 64 + 1 * q.val = q.val; omega)
  show k0_pay1 (F := Ideal) (iblk0 V c 0 t) (iblk0 V c 1 t) (iblk0 V c 2 t) (iblk0 V c 4 t) (iblk0 V c 3 t) (ix2 p q)
    = G V c (((cfg0.win 5).blk t).view.emb (ix2 p q))
  rw [hemb]
  refine (congrFun (Tile.pay0_eq (iblk0 V c 0 t) (iblk0 V c 1 t) (iblk0 V c 2 t) (iblk0 V c 4 t) (iblk0 V c 3 t)) (ix2 p q)).trans ?_
  rw [blkWl V c t, blkWr V c t, blkb V c t]
  exact layer_row_congr _ _ _ _ _ _ _ p ⟨t.val * 5000 + p.val, hp'⟩ q
    (fun k => blkM V c t p _ rfl k) (fun k => blkX V c t p _ rfl k)

/-- An index of the output array is in point `t`'s block iff its row is one of the block's 5000. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v26).slice (win0_5.rect t)).set ↔ _
  rw [View.set_slice_whole, Rect.mem_set_unit]
  exact Iff.rfl

/-- The 20 blocks cover the array: row r is in block r / 5000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  refine ⟨⟨(i 0).val / 5000, by show (i 0).val / 5000 < 20; omega⟩, flush0_5 _, ?_⟩
  rw [mem_blk]
  obtain ⟨-, -, -, -, -, -, -, -, -, -, e0, e1⟩ := idx_facts ⟨(i 0).val / 5000, by show (i 0).val / 5000 < 20; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 64 ≤ (i 1).val ∧ (i 1).val < win0_5.index _ (1 : Fin 2) * 64 + 64
    rw [e1]; omega

/-- THE OUTPUT ARRAY after the region, whatever the buffers held when it was entered. -/
theorem final (c : Dev nD) : (dat0 V c).arrAt 5 cfg0.N = G V c :=
  (dat0 V c).arrAt_eq_of_cover 5 (G V c) (fun t _ => flushed_eq V c t) (cover)

end Cert.Sage.Region0

end
-- ==== Proof.Region1.lean ====
/-
  The second kernel over its whole grid, at ANY contents `V` of the buffers when the region is entered: its first
  output array ends as the dense step of the specification applied to the five arrays its first windows stage, and
  its second as the head of that table with the classifier matrix and bias.
  The grid has 20 points; point `t` stages rows 5000·t … 5000·t + 4999 of the aggregated table and of the hidden
  table, the three weight matrices and the two bias rows whole, and writes back rows 5000·t … of both outputs.  Row
  locality of the dense step and of the head makes each stored tile the tile of the whole-array function; the 20 tiles
  cover the 100000 rows.
-/
import proofs.«161212_j72361609003660_1_alg».proof.Proof.Gen.KernelIdeal.Frame
import proofs.«161212_j72361609003660_1_alg».proof.Proof.Tile

set_option maxRecDepth 16384

noncomputable section

namespace Cert.Sage.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the row-tiled windows are at block (t, 0), the weights
    and the biases at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The whole-array function the first output ends at … -/
abbrev G7 (c : Dev nD) : FVec Ideal S100000x64 .f32 :=
  layer (n := 100000) (V c main_v38) (V c main_v26) (V c main_v39) (V c main_v40) (V c main_v41)
/-- … and the second. -/
abbrev G8 (c : Dev nD) : FVec Ideal S100000x32 .f32 :=
  head (n := 100000) (G7 V c) (V c main_v42) (V c main_v43)

/-- A row of the aggregated table's block at point `t` is row 5000·t + p of the table. -/
theorem blkM (c : Dev nD) (t : Fin cfg1.N) (p : Fin 5000) (p' : Fin 100000) (hp : p'.val = t.val * 5000 + p.val) (k : Fin 64) :
    iblk1 V c 0 t (ix2 p k) = V c main_v38 (ix2 p' k) := by
  obtain ⟨e0, e1, -⟩ := idx_facts t
  show V c main_v38 (((cfg1.win 0).blk t).view.emb (ix2 p k)) = V c main_v38 (ix2 p' k)
  refine congrArg (V c main_v38) (funext fun a => Fin.ext ?_)
  match a with
  | ⟨0, _⟩ => show win1_0.index t (0 : Fin 2) * 5000 + 1 * p.val = p'.val; omega
  | ⟨1, _⟩ => show win1_0.index t (1 : Fin 2) * 64 + 1 * k.val = k.val; omega

/-- A row of the hidden table's block at point `t` is row 5000·t + p of the table. -/
theorem blkX (c : Dev nD) (t : Fin cfg1.N) (p : Fin 5000) (p' : Fin 100000) (hp : p'.val = t.val * 5000 + p.val) (k : Fin 64) :
    iblk1 V c 1 t (ix2 p k) = V c main_v26 (ix2 p' k) := by
  obtain ⟨-, -, e0, e1, -⟩ := idx_facts t
  show V c main_v26 (((cfg1.win 1).blk t).view.emb (ix2 p k)) = V c main_v26 (ix2 p' k)
  refine congrArg (V c main_v26) (funext fun a => Fin.ext ?_)
  match a with
  | ⟨0, _⟩ => show win1_1.index t (0 : Fin 2) * 5000 + 1 * p.val = p'.val; omega
  | ⟨1, _⟩ => show win1_1.index t (1 : Fin 2) * 64 + 1 * k.val = k.val; omega

/-- The weight and bias blocks are their arrays whole. -/
theorem blkWl (c : Dev nD) (t : Fin cfg1.N) : (iblk1 V c 2 t : FVec Ideal S64x64 .f32) = V c main_v39 := by
  obtain ⟨-, -, -, -, e0, e1, -⟩ := idx_facts t
  funext y
  show V c main_v39 (((cfg1.win 2).blk t).view.emb y) = V c main_v39 y
  refine congrArg (V c main_v39) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem blkb (c : Dev nD) (t : Fin cfg1.N) : (iblk1 V c 3 t : FVec Ideal S1x64 .f32) = V c main_v41 := by
  obtain ⟨-, -, -, -, -, -, e0, e1, -⟩ := idx_facts t
  funext y
  show V c main_v41 (((cfg1.win 3).blk t).view.emb y) = V c main_v41 y
  refine congrArg (V c main_v41) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem blkWr (c : Dev nD) (t : Fin cfg1.N) : (iblk1 V c 4 t : FVec Ideal S64x64 .f32) = V c main_v40 := by
  obtain ⟨-, -, -, -, -, -, -, -, e0, e1, -⟩ := idx_facts t
  funext y
  show V c main_v40 (((cfg1.win 4).blk t).view.emb y) = V c main_v40 y
  refine congrArg (V c main_v40) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem blkWc (c : Dev nD) (t : Fin cfg1.N) : (iblk1 V c 5 t : FVec Ideal S64x32 .f32) = V c main_v42 := by
  obtain ⟨-, -, -, -, -, -, -, -, -, -, e0, e1, -⟩ := idx_facts t
  funext y
  show V c main_v42 (((cfg1.win 5).blk t).view.emb y) = V c main_v42 y
  refine congrArg (V c main_v42) (funext fun a => Fin.ext ?_)
  match a with
  | ⟨0, _⟩ => show win1_5.index t (0 : Fin 2) * 64 + 1 * (y 0).val = (y 0).val; omega
  | ⟨1, _⟩ => show win1_5.index t (1 : Fin 2) * 32 + 1 * (y 1).val = (y 1).val; omega

theorem blkbc (c : Dev nD) (t : Fin cfg1.N) : (iblk1 V c 6 t : FVec Ideal S1x32 .f32) = V c main_v43 := by
  obtain ⟨-, -, -, -, -, -, -, -, -, -, -, -, e0, e1, -⟩ := idx_facts t
  funext y
  show V c main_v43 (((cfg1.win 6).blk t).view.emb y) = V c main_v43 y
  refine congrArg (V c main_v43) (funext fun a => Fin.ext ?_)
  match a with
  | ⟨0, _⟩ => show win1_6.index t (0 : Fin 2) * 1 + 1 * (y 0).val = (y 0).val; omega
  | ⟨1, _⟩ => show win1_6.index t (1 : Fin 2) * 32 + 1 * (y 1).val = (y 1).val; omega

/-- Row p of the dense step on point `t`'s blocks is row 5000·t + p of the dense step on the arrays. -/
theorem layer_blk (c : Dev nD) (t : Fin cfg1.N) (p : Fin 5000) (p' : Fin 100000) (hp : p'.val = t.val * 5000 + p.val) (q : Fin 64) :
    layer (n := 5000) (iblk1 V c 0 t) (iblk1 V c 1 t) (V c main_v39) (V c main_v40) (V c main_v41) (ix2 p q) = G7 V c (ix2 p' q) :=
  layer_row_congr _ _ _ _ _ _ _ p p' q (fun k => blkM V c t p p' hp k) (fun k => blkX V c t p p' hp k)

/-- WHAT POINT `t` WRITES BACK to the first output is block `t` of the whole-array function. -/
theorem flushed7_eq (c : Dev nD) (t : Fin cfg1.N) :
    (dat1 V c).flushed 7 t = ((cfg1.win 7).blk t).view.read (Elt Ideal) (G7 V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  obtain ⟨-, -, -, -, -, -, -, -, -, -, -, -, -, -, e0, e1, -⟩ := idx_facts t
  have ht : t.val < 20 := t.isLt
  have hp' : t.val * 5000 + p.val < 100000 := by have := p.isLt; omega
  have hemb : ((cfg1.win 7).blk t).view.emb (ix2 p q) = (ix2 (⟨t.val * 5000 + p.val, hp'⟩ : Fin 100000) q : S100000x64.Idx) :=
    funext fun a => Fin.ext (by
      match a with
      | ⟨0, _⟩ => show win1_7.index t (0 : Fin 2) * 5000 + 1 * p.val = t.val * 5000 + p.val; omega
      | ⟨1, _⟩ => show win1_7.index t (1 : Fin 2) * 64 + 1 * q.val = q.val; omega)
  show k1_pay1 (F := Ideal) (iblk1 V c 0 t) (iblk1 V c 1 t) (iblk1 V c 2 t) (iblk1 V c 4 t) (iblk1 V c 3 t) (ix2 p q)
    = G7 V c (((cfg1.win 7).blk t).view.emb (ix2 p q))
  rw [hemb]
  refine (congrFun (Tile.pay1_eq (iblk1 V c 0 t) (iblk1 V c 1 t) (iblk1 V c 2 t) (iblk1 V c 4 t) (iblk1 V c 3 t)) (ix2 p q)).trans ?_
  rw [blkWl V c t, blkWr V c t, blkb V c t]
  exact layer_blk V c t p _ rfl q

/-- WHAT POINT `t` WRITES BACK to the second output is block `t` of the whole-array function. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8]
  unfold out1_8
  rw [View.canon_unit_zero hz]
  simp only [View.ld_unit_zero (S := S5000x64) hz, View.ld_unit_zero (S := S64x64) hz, View.ld_unit_zero (S := S1x64) hz,
    View.ld_unit_zero (S := S64x32) hz, View.ld_unit_zero (S := S1x32) hz]
  funext j
  obtain ⟨p, q, rfl⟩ : ∃ (p : Fin 5000) (q : Fin 32), j = ix2 p q := ⟨j 0, j 1, eq_ix2 j⟩
  obtain ⟨-, -, -, -, -, -, -, -, -, -, -, -, -, -, -, -, e0, e1⟩ := idx_facts t
  have ht : t.val < 20 := t.isLt
  have hp' : t.val * 5000 + p.val < 100000 := by have := p.isLt; omega
  have hemb : ((cfg1.win 8).blk t).view.emb (ix2 p q) = (ix2 (⟨t.val * 5000 + p.val, hp'⟩ : Fin 100000) q : S100000x32.Idx) :=
    funext fun a => Fin.ext (by
      match a with
      | ⟨0, _⟩ => show win1_8.index t (0 : Fin 2) * 5000 + 1 * p.val = t.val * 5000 + p.val; omega
      | ⟨1, _⟩ => show win1_8.index t (1 : Fin 2) * 32 + 1 * q.val = q.val; omega)
  show k1_pay2 (F := Ideal) (iblk1 V c 0 t) (iblk1 V c 1 t) (iblk1 V c 2 t) (iblk1 V c 4 t) (iblk1 V c 5 t) (iblk1 V c 3 t) (iblk1 V c 6 t) (ix2 p q)
    = G8 V c (((cfg1.win 8).blk t).view.emb (ix2 p q))
  rw [hemb]
  refine (congrFun (Tile.pay2_eq (iblk1 V c 0 t) (iblk1 V c 1 t) (iblk1 V c 2 t) (iblk1 V c 4 t) (iblk1 V c 5 t) (iblk1 V c 3 t) (iblk1 V c 6 t)) (ix2 p q)).trans ?_
  rw [blkWl V c t, blkWr V c t, blkb V c t, blkWc V c t, blkbc V c t]
  exact head_row_congr _ _ _ _ p ⟨t.val * 5000 + p.val, hp'⟩ q (fun k => layer_blk V c t p _ rfl k)

/-- An index of the first output array is in point `t`'s block iff its row is one of the block's 5000. -/
theorem mem_blk7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v44_0).slice (win1_7.rect t)).set ↔ _
  rw [View.set_slice_whole, Rect.mem_set_unit]
  exact Iff.rfl

theorem mem_blk8 (t : Fin cfg1.N) (i : S100000x32.Idx) :
    i ∈ ((cfg1.win 8).blk t).view.set ↔ ∀ a : Fin 2, win1_8.index t a * S5000x32.size a ≤ (i a).val ∧ (i a).val < win1_8.index t a * S5000x32.size a + S5000x32.size a := by
  show i ∈ ((View.whole main_v44_1).slice (win1_8.rect t)).set ↔ _
  rw [View.set_slice_whole, Rect.mem_set_unit]
  exact Iff.rfl

/-- The 20 blocks cover each output array: row r is in block r / 5000. -/
theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  refine ⟨⟨(i 0).val / 5000, by show (i 0).val / 5000 < 20; omega⟩, flush1_7 _, ?_⟩
  rw [mem_blk7]
  obtain ⟨-, -, -, -, -, -, -, -, -, -, -, -, -, -, e0, e1, -⟩ := idx_facts ⟨(i 0).val / 5000, by show (i 0).val / 5000 < 20; omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 64 ≤ (i 1).val ∧ (i 1).val < win1_7.index _ (1 : Fin 2) * 64 + 64
    rw [e1]; omega

theorem cover8 (i : S100000x32.Idx) : ∃ t : Fin cfg1.N, (cfg1.win 8).flush t = true ∧ i ∈ ((cfg1.win 8).blk t).view.set := by
  have hi0 : (i 0).val < 100000 := (i 0).isLt
  have hi1 : (i 1).val < 32 := (i 1).isLt
  refine ⟨⟨(i 0).val / 5000, by show (i 0).val / 5000 < 20; omega⟩, flush1_8 _, ?_⟩
  rw [mem_blk8]
  obtain ⟨-, -, -, -, -, -, -, -, -, -, -, -, -, -, -, -, e0, e1⟩ := idx_facts ⟨(i 0).val / 5000, by show (i 0).val / 5000 < 20; omega⟩
  intro a
  match a with
  | ⟨0, _⟩ =>
    show win1_8.index _ (0 : Fin 2) * 5000 ≤ (i 0).val ∧ (i 0).val < win1_8.index _ (0 : Fin 2) * 5000 + 5000
    rw [e0]; show (i 0).val / 5000 * 5000 ≤ (i 0).val ∧ (i 0).val < (i 0).val / 5000 * 5000 + 5000; omega
  | ⟨1, _⟩ =>
    show win1_8.index _ (1 : Fin 2) * 32 ≤ (i 1).val ∧ (i 1).val < win1_8.index _ (1 : Fin 2) * 32 + 32
    rw [e1]; omega

/-- THE OUTPUT ARRAYS after the region, whatever the buffers held when it was entered. -/
theorem final7 (c : Dev nD) : (dat1 V c).arrAt 7 cfg1.N = G7 V c :=
  (dat1 V c).arrAt_eq_of_cover 7 (G7 V c) (fun t _ => flushed7_eq V c t) (cover7)

theorem final8 (c : Dev nD) : (dat1 V c).arrAt 8 cfg1.N = G8 V c :=
  (dat1 V c).arrAt_eq_of_cover 8 (G8 V c) (fun t _ => flushed8_eq V c t) (cover8)

end Cert.Sage.Region1

end
-- ==== Proof.KernelValue.lean ====
/-
  The kernel's program from launch to return, read as values.
  Between the launch memory and the first kernel the host computes, from the edge list, the source and destination
  index vectors and the clipped in-degree column, aggregates the node table along the edges (`agg`: gather the source
  rows, sum them into their destinations, divide by the clipped in-degree), transposes the two weight matrices and
  lays the bias out as a row.  The first kernel turns these into the hidden table (the dense step of the
  specification, by the region's whole-array form).  The host then aggregates the hidden table with the same index
  vectors and the same in-degree column, transposes the second layer's and the head's weights, and the second kernel
  writes the second hidden table and the logits.  Each buffer a region stages is read back through the host
  operations to the launch memory; a buffer no operation writes keeps its contents.
-/
import proofs.«161212_j72361609003660_1_alg».proof.Proof.Region0
import proofs.«161212_j72361609003660_1_alg».proof.Proof.Region1
import Idealize.ShloMosaic.Lib.StableHlo.Run
import Idealize.ShloMosaic.Lib.ValueLayout

set_option maxRecDepth 16384

noncomputable section

namespace Cert.Sage.Ker

open Idealize.ShloMosaic Idealize.ShloMosaic.TcCoe Idealize.ShloMosaic.ValueIdx Idealize.SL.Sem Idealize.ShloMosaic.StableHlo
open Cert.KernelIdeal Cert.KernelIdeal.Gen Cert.Sage

/-! ## The host operations both layers share, as functions -/

/-- The edges' source nodes: row 0 of the edge list. -/
def src (E : IVec S2x1250000 32) : IVec S1250000 32 :=
  shapeCast S1250000 (extractStridedSlice S1x1250000 ![0, 0] E slices_S2x1250000_S1x1250000_0_0) shapeCasts_S1x1250000_S1250000
/-- The edges' destination nodes: row 1 of the edge list. -/
def dst (E : IVec S2x1250000 32) : IVec S1250000 32 :=
  shapeCast S1250000 (extractStridedSlice S1x1250000 ![1, 0] E slices_S2x1250000_S1x1250000_1_0) shapeCasts_S1x1250000_S1250000
/-- The in-degree of every node, clipped below at one, as a column. -/
def invdeg (D : IVec S1250000 32) : FVec Ideal S100000x1 .f32 :=
  broadcastInDim S100000x1 ![0] bcast_S100000_S100000x1_0
    (maximumf
      (Host.scatterAdd scatter_S100000_S1250000x1_S1250000_n_0_0_1
        (broadcastInDim S100000 ![] bcast_S_S100000 (constant S_ .f32 0x00000000#32))
        (broadcastInDim S1250000x1 ![0] bcast_S1250000_S1250000x1_0 D)
        (broadcastInDim S1250000 ![] bcast_S_S1250000 (constant S_ .f32 0x3F800000#32)))
      (broadcastInDim S100000 ![] bcast_S_S100000 (constant S_ .f32 0x3F800000#32)))
/-- The neighbour mean of a node table for given index vectors and a given degree column. -/
def aggWith (X : FVec Ideal S100000x64 .f32) (S D : IVec S1250000 32) (I : FVec Ideal S100000x1 .f32) : FVec Ideal S100000x64 .f32 :=
  Host.divf
    (Host.scatterAdd scatter_S100000x64_S1250000x1_S1250000x64_1_0_0_1
      (broadcastInDim S100000x64 ![] bcast_S_S100000x64 (constant S_ .f32 0x00000000#32))
      (broadcastInDim S1250000x1 ![0] bcast_S1250000_S1250000x1_0 D)
      (Host.gather gather_S100000x64_S1250000x1_S1250000x64_1_0_n_n_0_1_164 X
        (broadcastInDim S1250000x1 ![0] bcast_S1250000_S1250000x1_0
          (select (cmpi CmpIPredicate.slt S (broadcastInDim S1250000 ![] bcast_S_S1250000 (constantI S_ 32 0#32)))
            (addi S (broadcastInDim S1250000 ![] bcast_S_S1250000 (constantI S_ 32 100000#32))) S))))
    (broadcastInDim S100000x64 ![0, 1] bcast_S100000x1_S100000x64_0_1 I)
/-- The neighbour-mean aggregation of a node table along the edge list. -/
def agg (X : FVec Ideal S100000x64 .f32) (E : IVec S2x1250000 32) : FVec Ideal S100000x64 .f32 :=
  aggWith X (src E) (dst E) (invdeg (dst E))

/-- A transposed square weight matrix is the matrix with its coordinates exchanged. -/
theorem transpose64 (W : FVec Ideal S64x64 .f32) : transpose S64x64 [1, 0] W transposes_S64x64_S64x64_1_0 = tr W := by
  funext i
  obtain ⟨j, k, rfl⟩ : ∃ (j : Fin 64) (k : Fin 64), i = ix2 j k := ⟨i 0, i 1, eq_ix2 i⟩
  exact transpose_ix2_apply W transposes_S64x64_S64x64_1_0 j k
/-- The transposed head matrix likewise. -/
theorem transpose32 (W : FVec Ideal S32x64 .f32) : transpose S64x32 [1, 0] W transposes_S32x64_S64x32_1_0 = tr W := by
  funext i
  obtain ⟨j, k, rfl⟩ : ∃ (j : Fin 64) (k : Fin 32), i = ix2 j k := ⟨i 0, i 1, eq_ix2 i⟩
  exact transpose_ix2_apply W transposes_S32x64_S64x32_1_0 j k
/-- A bias vector reshaped to one row is the vector laid out as a row. -/
theorem reshape64 (b : FVec Ideal S64 .f32) : shapeCast S1x64 b shapeCasts_S64_S1x64 = rowOf b := by
  funext i
  obtain ⟨z, k, rfl⟩ : ∃ (z : Fin 1) (k : Fin 64), i = ix2 z k := ⟨i 0, i 1, eq_ix2 i⟩
  refine shapeCast_apply b shapeCasts_S64_S1x64 (ix2 z k) (ix1 k) ?_
  rw [Shape.rowMajor_val_one, Shape.rowMajor_val_two]
  have hz : z.val = 0 := by have := z.isLt; omega
  show k.val = z.val * 64 + k.val
  omega
theorem reshape32 (b : FVec Ideal S32 .f32) : shapeCast S1x32 b shapeCasts_S32_S1x32 = rowOf b := by
  funext i
  obtain ⟨z, k, rfl⟩ : ∃ (z : Fin 1) (k : Fin 32), i = ix2 z k := ⟨i 0, i 1, eq_ix2 i⟩
  refine shapeCast_apply b shapeCasts_S32_S1x32 (ix2 z k) (ix1 k) ?_
  rw [Shape.rowMajor_val_one, Shape.rowMajor_val_two]
  have hz : z.val = 0 := by have := z.isLt; omega
  show k.val = z.val * 32 + k.val
  omega

end Cert.Sage.Ker

/-! ## The run, read buffer by buffer -/

namespace Cert.Sage.Ker

open Idealize.ShloMosaic Idealize.ShloMosaic.TcCoe Idealize.ShloMosaic.ValueIdx Idealize.SL.Sem Idealize.ShloMosaic.StableHlo
open Cert.KernelIdeal Cert.KernelIdeal.Gen Cert.Sage

variable (m : (ℓ : Loc nD τ sig) → Buf (Elt Ideal) ℓ) (ρ : Dev nD → PrngReg)

/-- The arguments' launch contents on core `c`, at their literal types. -/
abbrev aX (c : Dev nD) : FVec Ideal S100000x64 .f32 := m ((c : Thread nD τ).loc main_arg0)
abbrev aE (c : Dev nD) : IVec S2x1250000 32 := m ((c : Thread nD τ).loc main_arg1)
abbrev aW1l (c : Dev nD) : FVec Ideal S64x64 .f32 := m ((c : Thread nD τ).loc main_arg2)
abbrev ab1 (c : Dev nD) : FVec Ideal S64 .f32 := m ((c : Thread nD τ).loc main_arg3)
abbrev aW1r (c : Dev nD) : FVec Ideal S64x64 .f32 := m ((c : Thread nD τ).loc main_arg4)
abbrev aW2l (c : Dev nD) : FVec Ideal S64x64 .f32 := m ((c : Thread nD τ).loc main_arg5)
abbrev ab2 (c : Dev nD) : FVec Ideal S64 .f32 := m ((c : Thread nD τ).loc main_arg6)
abbrev aW2r (c : Dev nD) : FVec Ideal S64x64 .f32 := m ((c : Thread nD τ).loc main_arg7)
abbrev aWc (c : Dev nD) : FVec Ideal S32x64 .f32 := m ((c : Thread nD τ).loc main_arg8)
abbrev abc (c : Dev nD) : FVec Ideal S32 .f32 := m ((c : Thread nD τ).loc main_arg9)

/-! ### What the first kernel finds -/

theorem V1_x (c : Dev nD) : V1 m ρ c main_arg0 = aX m c := by
  show StableHlo.after hostOps0 (W0 m ρ c) (Proc.devRef .tc main_arg0) = _
  after_results_simp <;> rfl

theorem V1_mean (c : Dev nD) : V1 m ρ c main_v22 = agg (aX m c) (aE m c) := by
  show StableHlo.after hostOps0 (W0 m ρ c) (Proc.devRef .tc main_v22) = _
  after_results_simp <;> rfl

theorem V1_wl (c : Dev nD) : V1 m ρ c main_v23 = tr (aW1l m c) := by
  show StableHlo.after hostOps0 (W0 m ρ c) (Proc.devRef .tc main_v23) = _
  after_results_simp
  exact transpose64 _

theorem V1_wr (c : Dev nD) : V1 m ρ c main_v24 = tr (aW1r m c) := by
  show StableHlo.after hostOps0 (W0 m ρ c) (Proc.devRef .tc main_v24) = _
  after_results_simp
  exact transpose64 _

theorem V1_b (c : Dev nD) : V1 m ρ c main_v25 = rowOf (ab1 m c) := by
  show StableHlo.after hostOps0 (W0 m ρ c) (Proc.devRef .tc main_v25) = _
  after_results_simp
  exact reshape64 _

/-- The first hidden table, as a function of the launch contents. -/
def H1 (c : Dev nD) : FVec Ideal S100000x64 .f32 :=
  layer (n := 100000) (agg (aX m c) (aE m c)) (aX m c) (tr (aW1l m c)) (tr (aW1r m c)) (rowOf (ab1 m c))

/-- What the first kernel leaves in its output array. -/
theorem W2_h1 (c : Dev nD) : W2 m ρ c (Proc.devRef .tc main_v26) = H1 m c := by
  refine (W2_arr m ρ c 5).trans ((Region0.final (V1 m ρ) c).trans ?_)
  show layer (n := 100000) (V1 m ρ c main_v22) (V1 m ρ c main_arg0) (V1 m ρ c main_v23) (V1 m ρ c main_v24) (V1 m ρ c main_v25) = _
  rw [V1_mean m ρ c, V1_x m ρ c, V1_wl m ρ c, V1_wr m ρ c, V1_b m ρ c]
  rfl

/-! ### What the first kernel leaves untouched -/

theorem W2_src (c : Dev nD) : W2 m ρ c (Proc.devRef .tc main_v1) = src (aE m c) :=
  (W2_of_ne m ρ c main_v1 (by decide)).trans (by
    show StableHlo.after hostOps0 (W0 m ρ c) (Proc.devRef .tc main_v1) = _
    after_results_simp <;> rfl)

theorem W2_dst (c : Dev nD) : W2 m ρ c (Proc.devRef .tc main_v3) = dst (aE m c) :=
  (W2_of_ne m ρ c main_v3 (by decide)).trans (by
    show StableHlo.after hostOps0 (W0 m ρ c) (Proc.devRef .tc main_v3) = _
    after_results_simp <;> rfl)

theorem W2_invdeg (c : Dev nD) : W2 m ρ c (Proc.devRef .tc main_v10) = invdeg (dst (aE m c)) :=
  (W2_of_ne m ρ c main_v10 (by decide)).trans (by
    show StableHlo.after hostOps0 (W0 m ρ c) (Proc.devRef .tc main_v10) = _
    after_results_simp <;> rfl)

theorem W2_w2l (c : Dev nD) : W2 m ρ c (Proc.devRef .tc main_arg5) = aW2l m c :=
  (W2_of_ne m ρ c main_arg5 (by decide)).trans (by
    show StableHlo.after hostOps0 (W0 m ρ c) (Proc.devRef .tc main_arg5) = _
    after_results_simp <;> rfl)

theorem W2_b2 (c : Dev nD) : W2 m ρ c (Proc.devRef .tc main_arg6) = ab2 m c :=
  (W2_of_ne m ρ c main_arg6 (by decide)).trans (by
    show StableHlo.after hostOps0 (W0 m ρ c) (Proc.devRef .tc main_arg6) = _
    after_results_simp <;> rfl)

theorem W2_w2r (c : Dev nD) : W2 m ρ c (Proc.devRef .tc main_arg7) = aW2r m c :=
  (W2_of_ne m ρ c main_arg7 (by decide)).trans (by
    show StableHlo.after hostOps0 (W0 m ρ c) (Proc.devRef .tc main_arg7) = _
    after_results_simp <;> rfl)

theorem W2_wc (c : Dev nD) : W2 m ρ c (Proc.devRef .tc main_arg8) = aWc m c :=
  (W2_of_ne m ρ c main_arg8 (by decide)).trans (by
    show StableHlo.after hostOps0 (W0 m ρ c) (Proc.devRef .tc main_arg8) = _
    after_results_simp <;> rfl)

theorem W2_bc (c : Dev nD) : W2 m ρ c (Proc.devRef .tc main_arg9) = abc m c :=
  (W2_of_ne m ρ c main_arg9 (by decide)).trans (by
    show StableHlo.after hostOps0 (W0 m ρ c) (Proc.devRef .tc main_arg9) = _
    after_results_simp <;> rfl)

/-! ### What the second kernel finds -/

theorem V3_mean (c : Dev nD) : V3 m ρ c main_v38 = agg (H1 m c) (aE m c) := by
  show StableHlo.after hostOps1 (W2 m ρ c) (Proc.devRef .tc main_v38) = _
  after_results_simp
  rw [W2_h1 m ρ c, W2_src m ρ c, W2_dst m ρ c, W2_invdeg m ρ c]
  rfl
theorem V3_h1 (c : Dev nD) : V3 m ρ c main_v26 = H1 m c := by
  show StableHlo.after hostOps1 (W2 m ρ c) (Proc.devRef .tc main_v26) = _
  after_results_simp
  exact W2_h1 m ρ c
theorem V3_wl (c : Dev nD) : V3 m ρ c main_v39 = tr (aW2l m c) := by
  show StableHlo.after hostOps1 (W2 m ρ c) (Proc.devRef .tc main_v39) = _
  after_results_simp
  rw [W2_w2l m ρ c]
  exact transpose64 _
theorem V3_wr (c : Dev nD) : V3 m ρ c main_v40 = tr (aW2r m c) := by
  show StableHlo.after hostOps1 (W2 m ρ c) (Proc.devRef .tc main_v40) = _
  after_results_simp
  rw [W2_w2r m ρ c]
  exact transpose64 _
theorem V3_b (c : Dev nD) : V3 m ρ c main_v41 = rowOf (ab2 m c) := by
  show StableHlo.after hostOps1 (W2 m ρ c) (Proc.devRef .tc main_v41) = _
  after_results_simp
  rw [W2_b2 m ρ c]
  exact reshape64 _
theorem V3_wc (c : Dev nD) : V3 m ρ c main_v42 = tr (aWc m c) := by
  show StableHlo.after hostOps1 (W2 m ρ c) (Proc.devRef .tc main_v42) = _
  after_results_simp
  rw [W2_wc m ρ c]
  exact transpose32 _
theorem V3_bc (c : Dev nD) : V3 m ρ c main_v43 = rowOf (abc m c) := by
  show StableHlo.after hostOps1 (W2 m ρ c) (Proc.devRef .tc main_v43) = _
  after_results_simp
  rw [W2_bc m ρ c]
  exact reshape32 _

/-- The second hidden table, as a function of the launch contents. -/
def H2 (c : Dev nD) : FVec Ideal S100000x64 .f32 :=
  layer (n := 100000) (agg (H1 m c) (aE m c)) (H1 m c) (tr (aW2l m c)) (tr (aW2r m c)) (rowOf (ab2 m c))

/-- THE SECOND RESULT: the second hidden table. -/
theorem W4_h2 (c : Dev nD) : W4 m ρ c (Proc.devRef .tc main_v44_0) = H2 m c := by
  refine (W4_arr m ρ c 7).trans ((Region1.final7 (V3 m ρ) c).trans ?_)
  show layer (n := 100000) (V3 m ρ c main_v38) (V3 m ρ c main_v26) (V3 m ρ c main_v39) (V3 m ρ c main_v40) (V3 m ρ c main_v41) = _
  rw [V3_mean m ρ c, V3_h1 m ρ c, V3_wl m ρ c, V3_wr m ρ c, V3_b m ρ c]
  rfl

/-- THE FIRST RESULT: the logits, the head of the second hidden table. -/
theorem W4_logits (c : Dev nD) :
    W4 m ρ c (Proc.devRef .tc main_v44_1) = head (n := 100000) (H2 m c) (tr (aWc m c)) (rowOf (abc m c)) := by
  refine (W4_arr m ρ c 8).trans ((Region1.final8 (V3 m ρ) c).trans ?_)
  show head (n := 100000) (layer (n := 100000) (V3 m ρ c main_v38) (V3 m ρ c main_v26) (V3 m ρ c main_v39) (V3 m ρ c main_v40) (V3 m ρ c main_v41))
    (V3 m ρ c main_v42) (V3 m ρ c main_v43) = _
  rw [V3_mean m ρ c, V3_h1 m ρ c, V3_wl m ρ c, V3_wr m ρ c, V3_b m ρ c, V3_wc m ρ c, V3_bc m ρ c]
  rfl

end Cert.Sage.Ker

end
-- ==== Proof.RefStages.lean ====
/-
  The reference, stage by stage, as the functions of the specification.
  Its neighbour-mean aggregation — the gather of the source rows, their segment sum over the destinations, and the
  division by the clipped in-degree — is kept as ONE function `agg` of a node table and the edge list: the kernel's
  program applies the same host operations, so the certificate never opens them.  Around it the reference computes,
  per layer, (mean · Wlᵀ + b) + x · Wrᵀ rectified, and a linear head: read at an entry, its two products are sums
  over the 64 contracted coordinates of the transposed weights, its bias the bias vector's entry, and the order of
  its additions differs from the specification's only by a regrouping.
-/
import proofs.«161212_j72361609003660_1_alg».proof.Proof.Gen.ReferenceIdeal.Run
import proofs.«161212_j72361609003660_1_alg».proof.Proof.Gen.ReferenceIdeal.Read
import proofs.«161212_j72361609003660_1_alg».proof.Proof.Spec

set_option maxRecDepth 16384

noncomputable section

open scoped BigOperators

namespace Cert.Sage.Ref

open Idealize.ShloMosaic Idealize.ShloMosaic.ValueIdx
open Cert.ReferenceIdeal Cert.ReferenceIdeal.Read Cert.Sage

/-- The neighbour-mean aggregation of a node table along the edge list, as the reference's host operations compute it. -/
def agg (X : FVec Ideal S100000x64 .f32) (E : IVec S2x1250000 32) : FVec Ideal S100000x64 .f32 :=
  val_main_v22 (F := Ideal) X E

/-- The second layer aggregates the first layer's output with the same operations. -/
theorem agg_second (x0 : FVec Ideal S100000x64 .f32) (x1 : IVec S2x1250000 32) (x2 : FVec Ideal S64x64 .f32)
    (x3 : FVec Ideal S64 .f32) (x4 : FVec Ideal S64x64 .f32) :
    val_main_v50 (F := Ideal) x0 x1 x2 x3 x4 = agg (val_main_v31 (F := Ideal) x0 x1 x2 x3 x4) x1 := by
  simp only [agg, val_main_v50, val_main_v22, val_main_v41, val_main_v13, val_main_v38, val_main_v10, val_main_v49, val_main_v21,
    val_main_v48, val_main_v20, val_main_v47, val_main_v19, val_main_v45, val_main_v17, val_main_v46, val_main_v18,
    val_main_v44, val_main_v16, val_main_v43, val_main_v15, val_main_v42, val_main_v14, val_main_v40, val_main_v12,
    val_main_v39, val_main_v11, val_main_v37, val_main_v9, val_main_v36, val_main_v8, val_main_v35, val_main_v7,
    val_main_v34, val_main_v6, val_main_v33, val_main_v5, val_main_v32, val_main_v4, val_main_cst_6, val_main_cst,
    val_main_cst_7, val_main_cst_1, val_main_cst_8, val_main_cst_2, val_main_cst_9, val_main_cst_3, val_main_c_4, val_main_c,
    val_main_c_5, val_main_c_0]

/-- The first layer's output is the dense step of the specification. -/
theorem h1_eq (x0 : FVec Ideal S100000x64 .f32) (x1 : IVec S2x1250000 32) (x2 : FVec Ideal S64x64 .f32)
    (x3 : FVec Ideal S64 .f32) (x4 : FVec Ideal S64x64 .f32) :
    val_main_v31 (F := Ideal) x0 x1 x2 x3 x4 = layer (n := 100000) (agg x0 x1) x0 (tr x2) (tr x4) (rowOf x3) := by
  funext i
  obtain ⟨p, q, rfl⟩ : ∃ (p : Fin 100000) (q : Fin 64), i = ix2 p q := ⟨i 0, i 1, eq_ix2 i⟩
  have l24 : ∀ k : Fin 64, lidx_main_v24 (ix2 p q) k = ix2 p k := fun k => funext fun a => Fin.ext (by
    match a with | ⟨0, _⟩ => rfl | ⟨1, _⟩ => rfl)
  have r24 : ∀ k : Fin 64, idx_main_v23 (ridx_main_v24 (ix2 p q) k) = ix2 q k := fun k => funext fun a => Fin.ext (by
    match a with | ⟨0, _⟩ => rfl | ⟨1, _⟩ => rfl)
  have l29 : ∀ k : Fin 64, lidx_main_v29 (ix2 p q) k = ix2 p k := fun k => funext fun a => Fin.ext (by
    match a with | ⟨0, _⟩ => rfl | ⟨1, _⟩ => rfl)
  have r29 : ∀ k : Fin 64, idx_main_v28 (ridx_main_v29 (ix2 p q) k) = ix2 q k := fun k => funext fun a => Fin.ext (by
    match a with | ⟨0, _⟩ => rfl | ⟨1, _⟩ => rfl)
  have b26 : idx_main_v25 (idx_main_v26 (ix2 p q)) = ix1 q := funext fun a => Fin.ext (by
    match a with | ⟨0, _⟩ => rfl)
  rw [layer_apply, val_main_v31_apply, val_main_v30_apply, val_main_v27_apply, val_main_v24_apply, val_main_v29_apply,
    val_main_v26_apply, val_main_v25_apply, val_main_call0_v0_apply, val_main_call0_cst_apply]
  simp only [val_main_v23_apply, val_main_v28_apply, l24, r24, l29, r29, b26, tr_apply, rowOf_apply]
  show max ((∑ k : Fin 64, agg x0 x1 (ix2 p k) * x2 (ix2 q k)) + x3 (ix1 q) + ∑ k : Fin 64, x0 (ix2 p k) * x4 (ix2 q k)) _ = _
  rw [add_regroup]
  rfl

/-- The second layer's output is the dense step on the aggregated first-layer output. -/
theorem h2_eq (x0 : FVec Ideal S100000x64 .f32) (x1 : IVec S2x1250000 32) (x2 : FVec Ideal S64x64 .f32)
    (x3 : FVec Ideal S64 .f32) (x4 x5 : FVec Ideal S64x64 .f32) (x6 : FVec Ideal S64 .f32) (x7 : FVec Ideal S64x64 .f32) :
    val_main_v59 (F := Ideal) x0 x1 x2 x3 x4 x5 x6 x7
      = layer (n := 100000) (agg (val_main_v31 (F := Ideal) x0 x1 x2 x3 x4) x1) (val_main_v31 (F := Ideal) x0 x1 x2 x3 x4)
          (tr x5) (tr x7) (rowOf x6) := by
  funext i
  obtain ⟨p, q, rfl⟩ : ∃ (p : Fin 100000) (q : Fin 64), i = ix2 p q := ⟨i 0, i 1, eq_ix2 i⟩
  have l52 : ∀ k : Fin 64, lidx_main_v52 (ix2 p q) k = ix2 p k := fun k => funext fun a => Fin.ext (by
    match a with | ⟨0, _⟩ => rfl | ⟨1, _⟩ => rfl)
  have r52 : ∀ k : Fin 64, idx_main_v51 (ridx_main_v52 (ix2 p q) k) = ix2 q k := fun k => funext fun a => Fin.ext (by
    match a with | ⟨0, _⟩ => rfl | ⟨1, _⟩ => rfl)
  have l57 : ∀ k : Fin 64, lidx_main_v57 (ix2 p q) k = ix2 p k := fun k => funext fun a => Fin.ext (by
    match a with | ⟨0, _⟩ => rfl | ⟨1, _⟩ => rfl)
  have r57 : ∀ k : Fin 64, idx_main_v56 (ridx_main_v57 (ix2 p q) k) = ix2 q k := fun k => funext fun a => Fin.ext (by
    match a with | ⟨0, _⟩ => rfl | ⟨1, _⟩ => rfl)
  have b54 : idx_main_v53 (idx_main_v54 (ix2 p q)) = ix1 q := funext fun a => Fin.ext (by
    match a with | ⟨0, _⟩ => rfl)
  rw [layer_apply, val_main_v59_apply, val_main_v58_apply, val_main_v55_apply, val_main_v52_apply, val_main_v57_apply,
    val_main_v54_apply, val_main_v53_apply, val_main_call1_v0_apply, val_main_call1_cst_apply, agg_second]
  simp only [val_main_v51_apply, val_main_v56_apply, l52, r52, l57, r57, b54, tr_apply, rowOf_apply]
  show max ((∑ k : Fin 64, agg (val_main_v31 (F := Ideal) x0 x1 x2 x3 x4) x1 (ix2 p k) * x5 (ix2 q k)) + x6 (ix1 q)
    + ∑ k : Fin 64, val_main_v31 (F := Ideal) x0 x1 x2 x3 x4 (ix2 p k) * x7 (ix2 q k)) _ = _
  rw [add_regroup]
  rfl

/-- The logits are the head of the second layer's output. -/
theorem logits_eq (x0 : FVec Ideal S100000x64 .f32) (x1 : IVec S2x1250000 32) (x2 : FVec Ideal S64x64 .f32)
    (x3 : FVec Ideal S64 .f32) (x4 x5 : FVec Ideal S64x64 .f32) (x6 : FVec Ideal S64 .f32) (x7 : FVec Ideal S64x64 .f32)
    (x8 : FVec Ideal S32x64 .f32) (x9 : FVec Ideal S32 .f32) :
    val_main_v64 (F := Ideal) x0 x1 x2 x3 x4 x5 x6 x7 x8 x9
      = head (n := 100000) (val_main_v59 (F := Ideal) x0 x1 x2 x3 x4 x5 x6 x7) (tr x8) (rowOf x9) := by
  funext i
  obtain ⟨p, q, rfl⟩ : ∃ (p : Fin 100000) (q : Fin 32), i = ix2 p q := ⟨i 0, i 1, eq_ix2 i⟩
  have l61 : ∀ k : Fin 64, lidx_main_v61 (ix2 p q) k = ix2 p k := fun k => funext fun a => Fin.ext (by
    match a with | ⟨0, _⟩ => rfl | ⟨1, _⟩ => rfl)
  have r61 : ∀ k : Fin 64, idx_main_v60 (ridx_main_v61 (ix2 p q) k) = ix2 q k := fun k => funext fun a => Fin.ext (by
    match a with | ⟨0, _⟩ => rfl | ⟨1, _⟩ => rfl)
  have b63 : idx_main_v62 (idx_main_v63 (ix2 p q)) = ix1 q := funext fun a => Fin.ext (by
    match a with | ⟨0, _⟩ => rfl)
  rw [head_apply, val_main_v64_apply, val_main_v61_apply, val_main_v63_apply, val_main_v62_apply]
  simp only [val_main_v60_apply, l61, r61, b63, tr_apply, rowOf_apply]
  rfl

end Cert.Sage.Ref

end
-- ==== Proof.lean ====
/-
  Two layers of neighbour-mean graph convolution and a linear head on 100000 nodes and 1250000 edges, computed by a
  program whose dense steps are two row-tiled kernels, against a reference that computes everything with whole-array
  host operations.  On the extended reals the two are one function of the inputs:

      h1     = layer (agg x E)  x  W1lᵀ W1rᵀ b1
      h2     = layer (agg h1 E) h1 W2lᵀ W2rᵀ b2
      logits = head h2 Wcᵀ bc

  where `agg` gathers the source rows of a table along the edges, sums them into their destination rows and divides
  by the in-degree clipped below at one, `layer M X Wl Wr b (r, j) = max(Σ_k M(r,k)·Wl(k,j) + Σ_k X(r,k)·Wr(k,j) + b(j), 0)`
  and `head H W b (r, j) = Σ_k H(r,k)·W(k,j) + b(j)`.
  The kernel side: each kernel's grid of 20 row tiles writes the whole-array `layer` / `head` of the arrays it stages
  (row locality; the tiles cover the rows), its matrix products into zero accumulators are plain sums, its changes
  of float format are the identity; the host operations around the kernels are read back to the launch memory.
  The reference side: each stage read at an entry; its products are the same sums, and it adds the bias before the
  second product where the kernels add it after — a regrouping of a sum of three extended reals, which needs no
  finiteness.  The aggregation is the same chain of host operations in both programs and is never opened.
  The idealization rewrote no operation, so nothing is owed for it beyond the frames.
-/
import proofs.«161212_j72361609003660_1_alg».proof.Defs
import proofs.«161212_j72361609003660_1_alg».proof.Proof.Gen.Kernel
import proofs.«161212_j72361609003660_1_alg».proof.Proof.Gen.Kernel.Skeleton
import proofs.«161212_j72361609003660_1_alg».proof.Proof.Gen.Kernel.Launch
import proofs.«161212_j72361609003660_1_alg».proof.Proof.Gen.Kernel.Points
import proofs.«161212_j72361609003660_1_alg».proof.Proof.Gen.Kernel.Frame
import proofs.«161212_j72361609003660_1_alg».proof.Proof.Gen.KernelIdeal
import proofs.«161212_j72361609003660_1_alg».proof.Proof.Gen.KernelIdeal.Skeleton
import proofs.«161212_j72361609003660_1_alg».proof.Proof.Gen.KernelIdeal.Launch
import proofs.«161212_j72361609003660_1_alg».proof.Proof.Gen.KernelIdeal.Points
import proofs.«161212_j72361609003660_1_alg».proof.Proof.Gen.KernelIdeal.Frame
import proofs.«161212_j72361609003660_1_alg».proof.Proof.Gen.ReferenceIdeal
import proofs.«161212_j72361609003660_1_alg».proof.Proof.Gen.ReferenceIdeal.Run
import proofs.«161212_j72361609003660_1_alg».proof.Proof.Gen.ReferenceIdeal.Read
import proofs.«161212_j72361609003660_1_alg».proof.Proof.Gen.Pre_finite_inputs
import proofs.«161212_j72361609003660_1_alg».proof.Proof.KernelRun
import proofs.«161212_j72361609003660_1_alg».proof.Proof.KernelValue
import proofs.«161212_j72361609003660_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem Cert.Sage

/-- The two programs aggregate with the same host operations: the same gather, the same two segment sums, the same
    clip and division, over the same index vectors cut from the edge list. -/
theorem agg_same (X : FVec Ideal ⟨2, ![100000, 64]⟩ .f32) (E : IVec ⟨2, ![2, 1250000]⟩ 32) : Ker.agg X E = Ref.agg X E := by
  simp only [Ker.agg, Ker.aggWith, Ker.invdeg, Ker.src, Ker.dst, Ref.agg, Cert.ReferenceIdeal.Read.val_main_v22,
    Cert.ReferenceIdeal.Read.val_main_v13, Cert.ReferenceIdeal.Read.val_main_v10, Cert.ReferenceIdeal.Read.val_main_v21,
    Cert.ReferenceIdeal.Read.val_main_v20, Cert.ReferenceIdeal.Read.val_main_v19, Cert.ReferenceIdeal.Read.val_main_v17,
    Cert.ReferenceIdeal.Read.val_main_v18, Cert.ReferenceIdeal.Read.val_main_v16, Cert.ReferenceIdeal.Read.val_main_v15,
    Cert.ReferenceIdeal.Read.val_main_v14, Cert.ReferenceIdeal.Read.val_main_v12, Cert.ReferenceIdeal.Read.val_main_v11,
    Cert.ReferenceIdeal.Read.val_main_v9, Cert.ReferenceIdeal.Read.val_main_v8, Cert.ReferenceIdeal.Read.val_main_v7,
    Cert.ReferenceIdeal.Read.val_main_v6, Cert.ReferenceIdeal.Read.val_main_v5, Cert.ReferenceIdeal.Read.val_main_v4,
    Cert.ReferenceIdeal.Read.val_main_v3, Cert.ReferenceIdeal.Read.val_main_v2, Cert.ReferenceIdeal.Read.val_main_v1,
    Cert.ReferenceIdeal.Read.val_main_v0, Cert.ReferenceIdeal.Read.val_main_cst, Cert.ReferenceIdeal.Read.val_main_cst_1,
    Cert.ReferenceIdeal.Read.val_main_cst_2, Cert.ReferenceIdeal.Read.val_main_cst_3, Cert.ReferenceIdeal.Read.val_main_c,
    Cert.ReferenceIdeal.Read.val_main_c_0]
  rfl

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's two results, from a memory that agrees with the kernel's on the arguments, are the kernel's
    two functions of the kernel's launch contents. -/
theorem ref_results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v64 (F := Ideal) m' c = head (n := 100000) (Ker.H2 m c) (tr (Ker.aWc m c)) (rowOf (Ker.abc m c))
    ∧ Cert.ReferenceIdeal.Value.res_main_v59 (F := Ideal) m' c = Ker.H2 m c := by
  have h59 : Cert.ReferenceIdeal.Value.res_main_v59 (F := Ideal) m' c = Ker.H2 m c := by
    rw [Cert.ReferenceIdeal.Read.val_main_v59_eq, Ref.h2_eq, Ref.h1_eq, e0, e1, e2, e3, e4, e5, e6, e7]
    unfold Ker.H2 Ker.H1
    simp only [agg_same]
  refine ⟨?_, h59⟩
  rw [Cert.ReferenceIdeal.Read.val_main_v64_eq, Ref.logits_eq, ← Cert.ReferenceIdeal.Read.val_main_v59_eq, h59, e8, e9]

/-- Both idealized programs run, and from memories that agree on the arguments they end with the same logits and the
    same second hidden table. -/
theorem algebraic : Cert.algebraic_KernelIdeal_ReferenceIdeal := by
  intro m ρ m' ρ' _ hagree
  refine ⟨fun c => head (n := 100000) (Ker.H2 m c) (tr (Ker.aWc m c)) (rowOf (Ker.abc m c)), fun c => Ker.H2 m c, ?_, ?_⟩
  · exact (θ_run Cert.KernelIdeal.defs _ _).mono
      (fun _ h c => ⟨(h c).1.trans (Ker.W4_logits m ρ c), (h c).2.1.trans (Ker.W4_h2 m ρ c), (h c).2.2⟩)
      (Cert.KernelIdeal.RunNamed.run_named (F := Ideal) m ρ)
  · refine (θ_run Cert.ReferenceIdeal.defs _ _).mono (fun _ h c => ?_) (Cert.ReferenceIdeal.Value.run (F := Ideal) m' ρ')
    obtain ⟨e0, e1, e2, e3, e4, e5, e6, e7, e8, e9⟩ := hagree c
    obtain ⟨r64, r59⟩ := ref_results m m' c e0 e1 e2 e3 e4 e5 e6 e7 e8 e9
    exact ⟨(h c).1.trans r64, (h c).2.1.trans r59, (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
